-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x8192 : Shape := ⟨2, ![64, 8192]⟩
abbrev S8192 : Shape := ⟨1, ![8192]⟩
abbrev S8192x4 : Shape := ⟨2, ![8192, 4]⟩
abbrev S8192x8192 : Shape := ⟨2, ![8192, 8192]⟩
abbrev S_ : Shape := ⟨0, ![]⟩

class Facts : Prop where
  bcast_S_S64x8192 : S_.BroadcastsInDim S64x8192 (![] : Fin 0 → Fin S64x8192.rank)
  reducesTo_S64x8192_S_d0_1 : S64x8192.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8192x4 : S_.BroadcastsInDim S8192x4 (![] : Fin 0 → Fin S8192x4.rank)
  reducesTo_S8192x4_S_d0_1 : S8192x4.ReducesTo [0, 1] S_
  bcast_S_S8192x8192 : S_.BroadcastsInDim S8192x8192 (![] : Fin 0 → Fin S8192x8192.rank)
  reducesTo_S8192x8192_S_d0_1 : S8192x8192.ReducesTo [0, 1] S_

variable [Facts]

def fn_part1 {F : FTy → Type} [FloatOps F] (main_arg4 : FVec F S8192x4 .f32) (main_arg5 : FVec F S8192x8192 .f32) (main_v13 : IVec S_ 1) (main_v16 : IVec S8192x4 1) : IVec S_ 1 :=
  let main_c_5 : IVec S_ 1 := constantI S_ 1 1#1
  let main_v17 : IVec S_ 1 := (fun x v => Host.reduce IntOp.andi x v reducesTo_S8192x4_S_d0_1 h_S_) main_v16 main_c_5
  let main_v18 : IVec S_ 1 := andi main_v13 main_v17
  let main_v19 : FVec F S8192x4 .f32 := Host.absf main_arg4
  let main_cst_6 : FVec F S_ .f32 := constant S_ .f32 0x7F800000#32
  let main_v20 : FVec F S8192x4 .f32 := broadcastInDim S8192x4 ![] bcast_S_S8192x4 main_cst_6
  let main_v21 : IVec S8192x4 1 := cmpf .olt main_v19 main_v20
  let main_c_7 : IVec S_ 1 := constantI S_ 1 1#1
  let main_v22 : IVec S_ 1 := (fun x v => Host.reduce IntOp.andi x v reducesTo_S8192x4_S_d0_1 h_S_) main_v21 main_c_7
  let main_v23 : IVec S_ 1 := andi main_v18 main_v22
  let main_v24 : FVec F S8192x8192 .f32 := Host.absf main_arg5
  let main_cst_8 : FVec F S_ .f32 := constant S_ .f32 0x7F800000#32
  let main_v25 : FVec F S8192x8192 .f32 := broadcastInDim S8192x8192 ![] bcast_S_S8192x8192 main_cst_8
  let main_v26 : IVec S8192x8192 1 := cmpf .olt main_v24 main_v25
  let main_c_9 : IVec S_ 1 := constantI S_ 1 1#1
  let main_v27 : IVec S_ 1 := (fun x v => Host.reduce IntOp.andi x v reducesTo_S8192x8192_S_d0_1 h_S_) main_v26 main_c_9
  let main_v28 : IVec S_ 1 := andi main_v23 main_v27
  main_v28

def fn {F : FTy → Type} [FloatOps F] (main_arg0 : FVec F S64x8192 .f32) (main_arg1 : FVec F S64x8192 .f32) (main_arg2 : FVec F S8192 .f32) (main_arg3 : FVec F S8192x4 .f32) (main_arg4 : FVec F S8192x4 .f32) (main_arg5 : FVec F S8192x8192 .f32) : IVec S_ 1 :=
  let main_v0 : FVec F S64x8192 .f32 := Host.absf main_arg0
  let main_cst : FVec F S_ .f32 := constant S_ .f32 0x7F800000#32
  let main_v1 : FVec F S64x8192 .f32 := broadcastInDim S64x8192 ![] bcast_S_S64x8192 main_cst
  let main_v2 : IVec S64x8192 1 := cmpf .olt main_v0 main_v1
  let main_c : IVec S_ 1 := constantI S_ 1 1#1
  let main_v3 : IVec S_ 1 := (fun x v => Host.reduce IntOp.andi x v reducesTo_S64x8192_S_d0_1 h_S_) main_v2 main_c
  let main_v4 : FVec F S64x8192 .f32 := Host.absf main_arg1
  let main_cst_0 : FVec F S_ .f32 := constant S_ .f32 0x7F800000#32
  let main_v5 : FVec F S64x8192 .f32 := broadcastInDim S64x8192 ![] bcast_S_S64x8192 main_cst_0
  let main_v6 : IVec S64x8192 1 := cmpf .olt main_v4 main_v5
  let main_c_1 : IVec S_ 1 := constantI S_ 1 1#1
  let main_v7 : IVec S_ 1 := (fun x v => Host.reduce IntOp.andi x v reducesTo_S64x8192_S_d0_1 h_S_) main_v6 main_c_1
  let main_v8 : IVec S_ 1 := andi main_v3 main_v7
  let main_v9 : FVec F S8192 .f32 := Host.absf main_arg2
  let main_cst_2 : FVec F S_ .f32 := constant S_ .f32 0x7F800000#32
  let main_v10 : FVec F S8192 .f32 := broadcastInDim S8192 ![] bcast_S_S8192 main_cst_2
  let main_v11 : IVec S8192 1 := cmpf .olt main_v9 main_v10
  let main_c_3 : IVec S_ 1 := constantI S_ 1 1#1
  let main_v12 : IVec S_ 1 := (fun x v => Host.reduce IntOp.andi x v reducesTo_S8192_S_d0 h_S_) main_v11 main_c_3
  let main_v13 : IVec S_ 1 := andi main_v8 main_v12
  let main_v14 : FVec F S8192x4 .f32 := Host.absf main_arg3
  let main_cst_4 : FVec F S_ .f32 := constant S_ .f32 0x7F800000#32
  let main_v15 : FVec F S8192x4 .f32 := broadcastInDim S8192x4 ![] bcast_S_S8192x4 main_cst_4
  let main_v16 : IVec S8192x4 1 := cmpf .olt main_v14 main_v15
  fn_part1 (F := F) main_arg4 main_arg5 main_v13 main_v16
-- ==== Kernel.lean ====
abbrev S64x8192 : Shape := ⟨2, ![64, 8192]⟩
abbrev S8192 : Shape := ⟨1, ![8192]⟩
abbrev S8192x4 : Shape := ⟨2, ![8192, 4]⟩
abbrev S8192x8192 : Shape := ⟨2, ![8192, 8192]⟩
abbrev S64x1024 : Shape := ⟨2, ![64, 1024]⟩
abbrev S1024x2048 : Shape := ⟨2, ![1024, 2048]⟩
abbrev S64x2048 : Shape := ⟨2, ![64, 2048]⟩
abbrev S1x8192 : Shape := ⟨2, ![1, 8192]⟩
abbrev S64x4 : Shape := ⟨2, ![64, 4]⟩
abbrev S4x8192 : Shape := ⟨2, ![4, 8192]⟩

abbrev nBuf : Space → Nat
  | .hbm => 15
  | .vmem => 7
  | .smem => 0
  | _ => 0

abbrev bufTy : (tb : Table) → Fin (tcTables nBuf tb) → BufTy
  | .hbm, ⟨0, _⟩ => ⟨S64x8192, .f32⟩
  | .hbm, ⟨1, _⟩ => ⟨S64x8192, .f32⟩
  | .hbm, ⟨2, _⟩ => ⟨S8192, .f32⟩
  | .hbm, ⟨3, _⟩ => ⟨S8192x4, .f32⟩
  | .hbm, ⟨4, _⟩ => ⟨S8192x4, .f32⟩
  | .hbm, ⟨5, _⟩ => ⟨S8192x8192, .f32⟩
  | .hbm, ⟨6, _⟩ => ⟨S64x8192, .f32⟩
  | .hbm, ⟨7, _⟩ => ⟨S1x8192, .f32⟩
  | .hbm, ⟨8, _⟩ => ⟨S64x8192, .f32⟩
  | .hbm, ⟨9, _⟩ => ⟨S64x8192, .f32⟩
  | .hbm, ⟨10, _⟩ => ⟨S64x4, .f32⟩
  | .hbm, ⟨11, _⟩ => ⟨S4x8192, .f32⟩
  | .hbm, ⟨12, _⟩ => ⟨S64x8192, .f32⟩
  | .hbm, ⟨13, _⟩ => ⟨S64x8192, .f32⟩
  | .hbm, ⟨14, _⟩ => ⟨S64x8192, .f32⟩
  | .local _ .vmem, ⟨0, _⟩ => ⟨S64x1024, .f32⟩
  | .local _ .vmem, ⟨1, _⟩ => ⟨S64x1024, .f32⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | _, _ => ⟨S64x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S64x1024_S64x1024_0_0 : ∀ a, (![0, 0] : Fin 2 → Nat) a + S64x1024.size a ≤ S64x1024.size a
  h_S64x1024 : 0 < S64x1024.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  bcast_S8192_S1x8192_1 : S8192.BroadcastsInDim S1x8192 (![1] : Fin 1 → Fin S1x8192.rank)
  bcast_S1x8192_S64x8192_0_1 : S1x8192.BroadcastsInDim S64x8192 (![0, 1] : Fin 2 → Fin S64x8192.rank)
  transposes_S8192x4_S4x8192_1_0 : S8192x4.Transposes [1, 0] S4x8192
  dot_S64x1024_S1024x2048_S64x2048_1_0_0_1_n_n_wf : DotDims.WF S64x1024 S1024x2048 S64x2048 [1] [0] [0] [1] [] []
  dot_S64x8192_S8192x4_S64x4_1_0_0_1_n_n_wf : DotDims.WF S64x8192 S8192x4 S64x4 [1] [0] [0] [1] [] []
  dot_S64x4_S4x8192_S64x8192_1_0_0_1_n_n_wf : DotDims.WF S64x4 S4x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x1024.size a ≤ S64x8192.size a
  hwx0_0 : ∀ i : grid0.Coords, EltTy.bits .f32 = 32 ∨ (Rect.block (s := S64x8192) S64x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S8192x8192.size a
  hwx0_1 : ∀ i : grid0.Coords, EltTy.bits .f32 = 32 ∨ (Rect.block (s := S8192x8192) S1024x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x8192.size a
  hwx0_2 : ∀ i : grid0.Coords, EltTy.bits .f32 = 32 ∨ (Rect.block (s := S64x8192) S64x2048.size (cc0_transform_2 i) (hinb0_2 i)).WholeWords (EltTy.packing .f32)

variable [Facts₀]

def dot_S64x1024_S1024x2048_S64x2048_1_0_0_1_n_n : DotDims S64x1024 S1024x2048 S64x2048 where
  lhsContracting := [1]
  rhsContracting := [0]
  lhsNonContracting := [0]
  rhsNonContracting := [1]
  lhsBatch := []
  rhsBatch := []
  wf := dot_S64x1024_S1024x2048_S64x2048_1_0_0_1_n_n_wf
def dot_S64x8192_S8192x4_S64x4_1_0_0_1_n_n : DotDims S64x8192 S8192x4 S64x4 where
  lhsContracting := [1]
  rhsContracting := [0]
  lhsNonContracting := [0]
  rhsNonContracting := [1]
  lhsBatch := []
  rhsBatch := []
  wf := dot_S64x8192_S8192x4_S64x4_1_0_0_1_n_n_wf
def dot_S64x4_S4x8192_S64x8192_1_0_0_1_n_n : DotDims S64x4 S4x8192 S64x8192 where
  lhsContracting := [1]
  rhsContracting := [0]
  lhsNonContracting := [0]
  rhsNonContracting := [1]
  lhsBatch := []
  rhsBatch := []
  wf := dot_S64x4_S4x8192_S64x8192_1_0_0_1_n_n_wf

abbrev win0_0 : Pipeline.Window sig grid0 :=
  Pipeline.Window.ofSpec (Memref.whole main_arg1) S64x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x8192 : Shape := ⟨2, ![64, 8192]⟩
abbrev S8192 : Shape := ⟨1, ![8192]⟩
abbrev S8192x4 : Shape := ⟨2, ![8192, 4]⟩
abbrev S8192x8192 : Shape := ⟨2, ![8192, 8192]⟩
abbrev S_ : Shape := ⟨0, ![]⟩
abbrev S8192x1 : Shape := ⟨2, ![8192, 1]⟩
abbrev S4x8192 : Shape := ⟨2, ![4, 8192]⟩

abbrev nBuf : Space → Nat
  | .hbm => 26
  | .vmem => 0
  | .smem => 0
  | _ => 0

abbrev bufTy : (tb : Table) → Fin (tcTables nBuf tb) → BufTy
  | .hbm, ⟨0, _⟩ => ⟨S64x8192, .f32⟩
  | .hbm, ⟨1, _⟩ => ⟨S64x8192, .f32⟩
  | .hbm, ⟨2, _⟩ => ⟨S8192, .f32⟩
  | .hbm, ⟨3, _⟩ => ⟨S8192x4, .f32⟩
  | .hbm, ⟨4, _⟩ => ⟨S8192x4, .f32⟩
  | .hbm, ⟨5, _⟩ => ⟨S8192x8192, .f32⟩
  | .hbm, ⟨6, _⟩ => ⟨S_, .f32⟩
  | .hbm, ⟨7, _⟩ => ⟨S8192, .f32⟩
  | .hbm, ⟨8, _⟩ => ⟨S8192x8192, .i32⟩
  | .hbm, ⟨9, _⟩ => ⟨S8192x8192, .i32⟩
  | .hbm, ⟨10, _⟩ => ⟨S_, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S8192x1, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S4x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S64x8192, .f32⟩
  | .hbm, ⟨24, _⟩ => ⟨S64x8192, .f32⟩
  | .hbm, ⟨25, _⟩ => ⟨S64x8192, .f32⟩
  | _, _ => ⟨S64x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_c : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_0 : Ref sig .tc := ⟨.hbm, 15, rfl⟩
abbrev main_call0_call0_v0 : Ref sig .tc := ⟨.hbm, 16, rfl⟩
abbrev main_call0_call0_v1 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩

abbrev nD : Nat := 1
abbrev τ : Topo := Topo.v7x

variable {F : FTy → Type} [FloatOps F]

class Facts₀ : Prop where
  pads_S8192_S8192_000 : S8192.Pads (![0] : Fin 1 → Nat) ![0] ![0] S8192
  h_S_ : 0 < S_.numel
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  transposes_S8192x4_S4x8192_1_0 : S8192x4.Transposes [1, 0] S4x8192
  transposes_S8192x8192_S8192x8192_1_0 : S8192x8192.Transposes [1, 0] S8192x8192
  dot_S8192x4_S4x8192_S8192x8192_1_0_0_1_n_n_wf : DotDims.WF S8192x4 S4x8192 S8192x8192 [1] [0] [0] [1] [] []
  dot_S64x8192_S8192x8192_S64x8192_1_0_0_1_n_n_wf : DotDims.WF S64x8192 S8192x8192 S64x8192 [1] [0] [0] [1] [] []

variable [Facts₀]

def dot_S8192x4_S4x8192_S8192x8192_1_0_0_1_n_n : DotDims S8192x4 S4x8192 S8192x8192 where
  lhsContracting := [1]
  rhsContracting := [0]
  lhsNonContracting := [0]
  rhsNonContracting := [1]
  lhsBatch := []
  rhsBatch := []
  wf := dot_S8192x4_S4x8192_S8192x8192_1_0_0_1_n_n_wf
def dot_S64x8192_S8192x8192_S64x8192_1_0_0_1_n_n : DotDims S64x8192 S8192x8192 S64x8192 where
  lhsContracting := [1]
  rhsContracting := [0]
  lhsNonContracting := [0]
  rhsNonContracting := [1]
  lhsBatch := []
  rhsBatch := []
  wf := dot_S64x8192_S8192x8192_S64x8192_1_0_0_1_n_n_wf

class Facts : Prop extends Facts₀ where

variable [Facts]
-- ==== Proof.KernelPieces.lean ====
/-
  What one execution of the kernel body leaves behind, as values.

  The body keeps a running [64, 2048] accumulator in a scratch buffer. At the first point of each
  row of the grid (k = 0) it stores zeros there and then adds the product of the current blocks; at
  every other point it adds the product to what the point before left; at the last point of the row
  (k = 7) it also copies the accumulator to the output block. Each of the three control cases is one
  covering store of the payload `k0_pay2 x0 x1 acc` (acc + x0 · x1), where `acc` is the zero block
  in the first case and the previous contents otherwise.
-/
import proofs.«114020_j9680856285214_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-- First point of a row: zeros are stored, read back, and the product of the blocks is added. -/
theorem scratch_A (c : Dev nD) (i : grid0.Coords) (a2 : Memref sig .tc .vmem S64x1024 .f32) (h2 : a2.IsWhole)
    (a3 : Memref sig .tc .vmem S1024x2048 .f32) (h3 : a3.IsWhole) (a4 : Memref sig .tc .vmem S64x2048 .f32) (h4 : a4.IsWhole)
    (a5 : Memref sig .tc .vmem S64x2048 .f32) (h5 : a5.IsWhole) (hc0 : cond0_0 i) (hc1 : ¬cond0_1 i)
    (x0 : Vec F S64x1024 .f32) (x1 : Vec F S1024x2048 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S64x2048) hz]
  simp only [View.readAt_eq_ld, h2.read_unread, h3.read_unread, View.readCov_unit_zero (S := S64x2048) _ hz,
    View.ld_unit_zero (S := S64x1024) hz, View.ld_unit_zero (S := S1024x2048) hz, View.ld_unit_zero (S := S64x2048) hz]

/-- A middle point of a row: the product of the blocks is added to what the point before left. -/
theorem scratch_B (c : Dev nD) (i : grid0.Coords) (a2 : Memref sig .tc .vmem S64x1024 .f32) (h2 : a2.IsWhole)
    (a3 : Memref sig .tc .vmem S1024x2048 .f32) (h3 : a3.IsWhole) (a4 : Memref sig .tc .vmem S64x2048 .f32) (h4 : a4.IsWhole)
    (a5 : Memref sig .tc .vmem S64x2048 .f32) (h5 : a5.IsWhole) (hc0 : ¬cond0_0 i) (hc1 : ¬cond0_1 i)
    (x0 : Vec F S64x1024 .f32) (x1 : Vec F S1024x2048 .f32) (xs0 : Vec F S64x2048 .f32) :
    sout0_B_0 c i a2 h2 a3 h3 a4 h4 a5 h5 hc0 hc1 x0 x1 xs0 = k0_pay2 x0 x1 xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S64x1024) hz,
    View.ld_unit_zero (S := S1024x2048) hz, View.ld_unit_zero (S := S64x2048) hz]

/-- Last point of a row, the scratch: as in the middle. -/
theorem scratch_C (c : Dev nD) (i : grid0.Coords) (a2 : Memref sig .tc .vmem S64x1024 .f32) (h2 : a2.IsWhole)
    (a3 : Memref sig .tc .vmem S1024x2048 .f32) (h3 : a3.IsWhole) (a4 : Memref sig .tc .vmem S64x2048 .f32) (h4 : a4.IsWhole)
    (a5 : Memref sig .tc .vmem S64x2048 .f32) (h5 : a5.IsWhole) (hc0 : ¬cond0_0 i) (hc1 : cond0_1 i)
    (x0 : Vec F S64x1024 .f32) (x1 : Vec F S1024x2048 .f32) (xs0 : Vec F S64x2048 .f32) :
    sout0_C_0 c i a2 h2 a3 h3 a4 h4 a5 h5 hc0 hc1 x0 x1 xs0 = k0_pay2 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S64x1024) hz,
    View.ld_unit_zero (S := S1024x2048) hz, View.ld_unit_zero (S := S64x2048) hz]

/-- Last point of a row, the output block: the accumulator, read back after its update. -/
theorem out_C (c : Dev nD) (i : grid0.Coords) (a2 : Memref sig .tc .vmem S64x1024 .f32) (h2 : a2.IsWhole)
    (a3 : Memref sig .tc .vmem S1024x2048 .f32) (h3 : a3.IsWhole) (a4 : Memref sig .tc .vmem S64x2048 .f32) (h4 : a4.IsWhole)
    (a5 : Memref sig .tc .vmem S64x2048 .f32) (h5 : a5.IsWhole) (hc0 : ¬cond0_0 i) (hc1 : cond0_1 i)
    (x0 : Vec F S64x1024 .f32) (x1 : Vec F S1024x2048 .f32) (xs0 : Vec F S64x2048 .f32) :
    out0_C_2 c i a2 h2 a3 h3 a4 h4 a5 h5 hc0 hc1 x0 x1 xs0 = k0_pay2 x0 x1 xs0 := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.readCov_unit_zero (S := S64x2048) _ hz,
    View.ld_unit_zero (S := S64x1024) hz, View.ld_unit_zero (S := S1024x2048) hz, View.ld_unit_zero (S := S64x2048) hz]

end Cert.KernelIdeal.Acc

end
-- ==== Proof.DplrSpec.lean ====
/-
  The two programs as functions of the argument arrays, entry by entry, over the extended reals.

  Arguments: h, x : [64, 8192]; a : [8192]; p, q : [8192, 4]; B : [8192, 8192].
  The recurrent update with a diagonal-plus-low-rank state matrix A = diag(a) + p qᵀ is
      out[b, n] = Σ_j h[b, j] · A[n, j] + Σ_k x[b, k] · B[k, n].
  One program materialises A and contracts h against it (`refC`); the other never forms A and computes
      h[b, n] · a[n] + Σ_r (Σ_j h[b, j] · q[j, r]) · p[n, r]
  for the first summand (`kerC`). Both share the dense product x · B (`matC`).
  The functions are stated at explicit coordinates (b, n) and then as whole arrays.
-/
import Idealize.ShloMosaic.PureOps.Ideal
import Idealize.ShloMosaic.Lib.ValueIdx

noncomputable section

namespace Cert.Dplr

open Idealize.ShloMosaic Idealize.ShloMosaic.ValueIdx
open scoped BigOperators

/-- The shape of h, x and of the result. -/
abbrev SBH : Shape := ⟨2, ![64, 8192]⟩
/-- The shape of the diagonal a. -/
abbrev SH : Shape := ⟨1, ![8192]⟩
/-- The shape of the low-rank factors p and q. -/
abbrev SHR : Shape := ⟨2, ![8192, 4]⟩
/-- The shape of the dense matrix B. -/
abbrev SHH : Shape := ⟨2, ![8192, 8192]⟩

/-- Every entry of an array is a real number (neither +∞ nor −∞). -/
def AllReal {s : Shape} (v : s.Idx → EReal) : Prop := ∀ i, ∃ r : ℝ, v i = (r : EReal)

/-- The dense product: (x · B)[b, n] = Σ_k x[b, k] · B[k, n]. -/
def matC (x : SBH.Idx → EReal) (B : SHH.Idx → EReal) (b : Fin 64) (n : Fin 8192) : EReal :=
  ∑ k : Fin 8192, x (ix2 b k) * B (ix2 k n)

/-- The factored form: x·B plus h[b,n]·a[n] plus the rank-4 correction taken through h·q first. -/
def kerC (h x : SBH.Idx → EReal) (a : SH.Idx → EReal) (p q : SHR.Idx → EReal) (B : SHH.Idx → EReal)
    (b : Fin 64) (n : Fin 8192) : EReal :=
  matC x B b n
    + (h (ix2 b n) * a (ix1 n) + ∑ r : Fin 4, (∑ j : Fin 8192, h (ix2 b j) * q (ix2 j r)) * p (ix2 n r))

/-- The materialised form: h contracted against A[n, j] = (a[n] if n = j, else 0) + Σ_r p[n, r] · q[j, r], plus x·B. -/
def refC (h x : SBH.Idx → EReal) (a : SH.Idx → EReal) (p q : SHR.Idx → EReal) (B : SHH.Idx → EReal)
    (b : Fin 64) (n : Fin 8192) : EReal :=
  (∑ j : Fin 8192, h (ix2 b j) * ((if n = j then a (ix1 n) else 0) + ∑ r : Fin 4, p (ix2 n r) * q (ix2 j r)))
    + matC x B b n

/-- The factored form as a whole array. -/
def kerVal (h x : SBH.Idx → EReal) (a : SH.Idx → EReal) (p q : SHR.Idx → EReal) (B : SHH.Idx → EReal) :
    SBH.Idx → EReal := fun i => kerC h x a p q B (i 0) (i 1)

/-- The materialised form as a whole array. -/
def refVal (h x : SBH.Idx → EReal) (a : SH.Idx → EReal) (p q : SHR.Idx → EReal) (B : SHH.Idx → EReal) :
    SBH.Idx → EReal := fun i => refC h x a p q B (i 0) (i 1)

theorem kerVal_apply (h x : SBH.Idx → EReal) (a : SH.Idx → EReal) (p q : SHR.Idx → EReal) (B : SHH.Idx → EReal)
    (b : Fin 64) (n : Fin 8192) : kerVal h x a p q B (ix2 b n) = kerC h x a p q B b n := rfl

theorem refVal_apply (h x : SBH.Idx → EReal) (a : SH.Idx → EReal) (p q : SHR.Idx → EReal) (B : SHH.Idx → EReal)
    (b : Fin 64) (n : Fin 8192) : refVal h x a p q B (ix2 b n) = refC h x a p q B b n := rfl

end Cert.Dplr

end
-- ==== Proof.KernelAcc.lean ====
/-
  The accumulator point by point, and the array the region leaves.

  The grid is 4 × 8: point t has column block j = t / 8 and contraction block k = t % 8. The body adds to a
  [64, 2048] accumulator the product of x[:, 1024k : 1024k + 1024] and B[1024k : 1024k + 1024, 2048j : 2048j + 2048],
  starting from zero at k = 0, and writes the accumulator out at k = 7. So after point t the accumulator's entry
  (b, l) is the partial sum  Σ_{κ < 1024 (k + 1)} x[b, κ] · B[κ, 2048 j + l]  (addition of extended reals is
  associative and commutative, so the grouping into blocks does not matter), and the block written at k = 7 is the
  full contraction: the region's result array is x · B.
-/
import proofs.«114020_j9680856285214_1_alg».proof.Proof.KernelPieces
import proofs.«114020_j9680856285214_1_alg».proof.Proof.DplrSpec
import Idealize.ShloMosaic.Lib.StackMember
import Idealize.ShloMosaic.Lib.KernelVsHost
import Idealize.ShloMosaic.PureOps.Ideal.Laws
import Idealize.ShloMosaic.Lib.Pipeline.Value
import Mathlib.Algebra.BigOperators.Fin
import Mathlib.Algebra.BigOperators.Group.Finset.Basic

noncomputable section

open Idealize.ShloMosaic Idealize.ShloMosaic.TcCoe Idealize.SL.Sem
open Idealize.ShloMosaic.ValueIdx Idealize.ShloMosaic.StackMember
open Idealize.ShloMosaic.Pipeline (Dat)
open scoped BigOperators

namespace Cert.KernelIdeal.Acc

open Cert.KernelIdeal Cert.KernelIdeal.Gen Cert.KernelIdeal.Facts₀

/-! ## The two operands on natural-number coordinates (zero outside the array) -/

/-- x[b, k], for any natural k. -/
def xN (x : S64x8192.Idx → EReal) (b : Fin 64) (k : ℕ) : EReal := if h : k < 8192 then x (ix2 b ⟨k, h⟩) else 0

/-- B[k, n], for any naturals k, n. -/
def bN (B : S8192x8192.Idx → EReal) (k n : ℕ) : EReal :=
  if h : k < 8192 ∧ n < 8192 then B (ix2 ⟨k, h.1⟩ ⟨n, h.2⟩) else 0

/-- The partial contraction over the first s blocks of 1024, for column block j, at entry (b, l) of the block. -/
def partC (x : S64x8192.Idx → EReal) (B : S8192x8192.Idx → EReal) (s j : ℕ) (b : Fin 64) (l : Fin 2048) : EReal :=
  ∑ k ∈ Finset.range (s * 1024), xN x b k * bN B k (j * 2048 + l.val)

/-- The same as a [64, 2048] block. -/
def part (x : S64x8192.Idx → EReal) (B : S8192x8192.Idx → EReal) (s j : ℕ) : S64x2048.Idx → EReal :=
  fun y => partC x B s j (y 0) (y 1)

theorem part_apply (x : S64x8192.Idx → EReal) (B : S8192x8192.Idx → EReal) (s j : ℕ) (b : Fin 64) (l : Fin 2048) :
    part x B s j (ix2 b l) = partC x B s j b l := rfl

/-- All eight blocks: the full contraction, an entry of x · B. -/
theorem partC_full (x : S64x8192.Idx → EReal) (B : S8192x8192.Idx → EReal) (j : ℕ) (b : Fin 64) (l : Fin 2048)
    (h : j * 2048 + l.val < 8192) : partC x B 8 j b l = Cert.Dplr.matC x B b ⟨j * 2048 + l.val, h⟩ := by
  unfold partC Cert.Dplr.matC
  rw [show 8 * 1024 = 8192 from rfl, Finset.sum_range]
  refine Finset.sum_congr rfl fun k _ => ?_
  unfold xN bN
  rw [dif_pos k.isLt, dif_pos ⟨k.isLt, h⟩]

/-! ## The body's arithmetic at an entry -/

/-- The accumulate payload at entry (b, l): the old entry plus the row-by-column product of the two blocks
    (the narrowing casts are the identity on extended reals, the product into a zero accumulator is the plain sum). -/
theorem pay2_apply (x0 : S64x1024.Idx → EReal) (x1 : S1024x2048.Idx → EReal) (a0 : S64x2048.Idx → EReal)
    (b : Fin 64) (l : Fin 2048) :
    k0_pay2 (F := Ideal) x0 x1 a0 (ix2 b l) = a0 (ix2 b l) + ∑ kk : Fin 1024, x0 (ix2 b kk) * x1 (ix2 kk l) := by
  unfold k0_pay2
  refine (congrFun (shapeCast_self _ _) (ix2 b l)).trans ?_
  show a0 (ix2 b l) + _ = _
  refine congrArg (a0 (ix2 b l) + ·) ?_
  have hd : dot_S64x1024_S1024x2048_S64x2048_1_0_0_1_n_n = DotDims.plain 64 1024 2048 := rfl
  rw [matmul_zero_eq_dotGeneral, hd]
  exact dotGeneral_plain_apply none _ _ b l

/-- The reset payload is the zero block: the empty partial sum. -/
theorem pay1_eq (x : S64x8192.Idx → EReal) (B : S8192x8192.Idx → EReal) (j : ℕ) :
    k0_pay1 (F := Ideal) = part x B 0 j := by
  funext y
  unfold k0_pay1
  refine (congrFun (shapeCast_self _ _) y).trans ?_
  show Ideal.ofBits .f32 0x00000000#32 = partC x B 0 j (y 0) (y 1)
  unfold partC
  rw [Nat.zero_mul, Finset.range_zero, Finset.sum_empty]
  exact Ideal.ofBits_zero_f32

/-! ## The blocks the body reads -/

variable (m : (ℓ : Loc nD τ sig) → Buf (Elt Ideal) ℓ)

/-- x and B as the region finds them. -/
abbrev xarr (c : Dev nD) : S64x8192.Idx → EReal := V m c main_arg1
abbrev barr (c : Dev nD) : S8192x8192.Idx → EReal := V m c main_arg5
/-- Their blocks at point t. -/
abbrev xblk (c : Dev nD) (t : Fin cfg0.N) : S64x1024.Idx → EReal := iblk m c 0 t
abbrev bblk (c : Dev nD) (t : Fin cfg0.N) : S1024x2048.Idx → EReal := iblk m c 1 t

/-- The index maps over the grid: x's block is (0, k), B's is (k, j), the output's is (0, j). -/
theorem idx_facts : ∀ t : Fin cfg0.N,
    win0_0.index t (0 : Fin 2) = 0 ∧ win0_0.index t (1 : Fin 2) = t.val % 8
    ∧ win0_1.index t (0 : Fin 2) = t.val % 8 ∧ win0_1.index t (1 : Fin 2) = t.val / 8
    ∧ win0_2.index t (0 : Fin 2) = 0 ∧ win0_2.index t (1 : Fin 2) = t.val / 8 :=
  (by decide +kernel : ∀ t : Fin grid0.N, _)

theorem xblk_apply (c : Dev nD) (t : Fin cfg0.N) (b : Fin 64) (kk : Fin 1024) :
    xblk m c t (ix2 b kk) = xN (xarr m c) b (t.val % 8 * 1024 + kk.val) := by
  obtain ⟨e0, e1, -, -, -, -⟩ := idx_facts t
  have hb : t.val % 8 * 1024 + kk.val < 8192 := by
    have := kk.isLt; have := Nat.mod_lt t.val (show 0 < 8 by decide); omega
  unfold xN
  rw [dif_pos hb]
  show iblk m c 0 t (ix2 b kk) = V m c main_arg1 _
  unfold iblk
  rw [View.read_apply]
  show V m c main_arg1 _ = V m c main_arg1 _
  congr 1
  funext a
  apply Fin.ext
  match a with
  | ⟨0, _⟩ => show win0_0.index t 0 * 64 + 1 * b.val = b.val; rw [e0]; omega
  | ⟨1, _⟩ => show win0_0.index t 1 * 1024 + 1 * kk.val = t.val % 8 * 1024 + kk.val; rw [e1]; omega

theorem bblk_apply (c : Dev nD) (t : Fin cfg0.N) (kk : Fin 1024) (l : Fin 2048) :
    bblk m c t (ix2 kk l) = bN (barr m c) (t.val % 8 * 1024 + kk.val) (t.val / 8 * 2048 + l.val) := by
  obtain ⟨-, -, e2, e3, -, -⟩ := idx_facts t
  have hN : t.val < 32 := lt_of_lt_of_eq t.isLt (show cfg0.N = 32 from N_0)
  have hb : t.val % 8 * 1024 + kk.val < 8192 ∧ t.val / 8 * 2048 + l.val < 8192 := by
    have := kk.isLt; have := l.isLt; have := Nat.mod_lt t.val (show 0 < 8 by decide); omega
  unfold bN
  rw [dif_pos hb]
  show iblk m c 1 t (ix2 kk l) = V m c main_arg5 _
  unfold iblk
  rw [View.read_apply]
  show V m c main_arg5 _ = V m c main_arg5 _
  congr 1
  funext a
  apply Fin.ext
  match a with
  | ⟨0, _⟩ => show win0_1.index t 0 * 1024 + 1 * kk.val = t.val % 8 * 1024 + kk.val; rw [e2]; omega
  | ⟨1, _⟩ => show win0_1.index t 1 * 2048 + 1 * l.val = t.val / 8 * 2048 + l.val; rw [e3]; omega

/-! ## One point: s blocks become s + 1 -/

theorem step (c : Dev nD) (t : Fin cfg0.N) (s : ℕ) (hs : s = t.val % 8) :
    k0_pay2 (F := Ideal) (xblk m c t) (bblk m c t) (part (xarr m c) (barr m c) s (t.val / 8))
      = part (xarr m c) (barr m c) (s + 1) (t.val / 8) := by
  subst hs
  funext y
  obtain ⟨b, l, rfl⟩ : ∃ (b : Fin 64) (l : Fin 2048), y = ix2 b l := ⟨y 0, y 1, eq_ix2 y⟩
  rw [pay2_apply, part_apply, part_apply]
  have hsum : ∑ kk : Fin 1024, xblk m c t (ix2 b kk) * bblk m c t (ix2 kk l)
      = ∑ kk ∈ Finset.range 1024, xN (xarr m c) b (t.val % 8 * 1024 + kk)
          * bN (barr m c) (t.val % 8 * 1024 + kk) (t.val / 8 * 2048 + l.val) := by
    rw [Finset.sum_range]
    exact Finset.sum_congr rfl fun kk _ => by rw [xblk_apply, bblk_apply]
  rw [hsum]
  unfold partC
  rw [Nat.add_mul, Nat.one_mul, Finset.sum_range_add]

/-! ## The accumulator after every point -/

theorem acc_eq (c : Dev nD) : ∀ (n : ℕ) (hn : n < cfg0.N),
    (outsAt0 m c n hn).2 = part (xarr m c) (barr m c) (n % 8 + 1) (n / 8)
  | 0, hn => by
    have e : outsAt0 m c 0 hn = _ := outsAt0_A m c ⟨0, hn⟩ rfl (by show ¬((0 : ℕ) % 8 = 7); decide)
    rw [e]; dsimp only
    rw [scratch_A, pay1_eq (xarr m c) (barr m c) (0 / 8)]
    exact step m c ⟨0, hn⟩ 0 rfl
  | n + 1, hn => by
    have ih := acc_eq c n (Nat.lt_of_succ_lt hn)
    have hN : n + 1 < 32 := lt_of_lt_of_eq hn (show cfg0.N = 32 from N_0)
    by_cases h0 : (n + 1) % 8 = 0
    · have h1 : ¬(n + 1) % 8 = 7 := by omega
      have e : outsAt0 m c (n + 1) hn = _ := outsAt0_A m c ⟨n + 1, hn⟩ h0 h1
      rw [e]; dsimp only
      rw [scratch_A, pay1_eq (xarr m c) (barr m c) ((n + 1) / 8), h0]
      exact step m c ⟨n + 1, hn⟩ 0 h0.symm
    · have hs : n % 8 + 1 = (n + 1) % 8 := by omega
      have hj : n / 8 = (n + 1) / 8 := by omega
      by_cases h1 : (n + 1) % 8 = 7
      · have e : outsAt0 m c (n + 1) hn = _ := outsAt0_C m c ⟨n + 1, hn⟩ h0 h1
        rw [e]; dsimp only
        rw [scratch_C]
        show k0_pay2 _ _ (outsAt0 m c n _).2 = _
        rw [ih, hs, hj]
        exact step m c ⟨n + 1, hn⟩ ((n + 1) % 8) rfl
      · have e : outsAt0 m c (n + 1) hn = _ := outsAt0_B m c ⟨n + 1, hn⟩ h0 h1
        rw [e]; dsimp only
        rw [scratch_B]
        show k0_pay2 _ _ (outsAt0 m c n _).2 = _
        rw [ih, hs, hj]
        exact step m c ⟨n + 1, hn⟩ ((n + 1) % 8) rfl

/-! ## What the region writes back, and the array it leaves -/

/-- x · B as a whole [64, 8192] array. -/
def prodArr (x : S64x8192.Idx → EReal) (B : S8192x8192.Idx → EReal) : S64x8192.Idx → EReal :=
  fun i => Cert.Dplr.matC x B (i 0) (i 1)

/-- Block (0, j) of a [64, 8192] array, read at (b, l), is the array at (b, 2048 j + l). -/
theorem read_blk2 (t : Fin cfg0.N) (G : S64x8192.Idx → EReal) (b : Fin 64) (l : Fin 2048)
    (h : t.val / 8 * 2048 + l.val < 8192) :
    ((cfg0.win 2).blk t).view.read (Elt Ideal) G (ix2 b l) = G (ix2 b ⟨t.val / 8 * 2048 + l.val, h⟩) := by
  obtain ⟨-, -, -, -, e4, e5⟩ := idx_facts t
  rw [View.read_apply]
  refine congrArg G ?_
  funext a
  apply Fin.ext
  match a with
  | ⟨0, _⟩ => show win0_2.index t 0 * 64 + 1 * b.val = b.val; rw [e4]; omega
  | ⟨1, _⟩ => show win0_2.index t 1 * 2048 + 1 * l.val = t.val / 8 * 2048 + l.val; rw [e5]; omega

/-- The one write-back of each grid row (k = 7) writes the full contraction: block (0, j) of x · B. -/
theorem flushed_eq (c : Dev nD) (t : Fin cfg0.N) (hf : (cfg0.win 2).flush t = true) :
    (dats m 0 c).flushed 2 t = ((cfg0.win 2).blk t).view.read (Elt Ideal) (prodArr (xarr m c) (barr m c)) := by
  have h7 : t.val % 8 = 7 := (flush0_2 t).mp hf
  have h0 : ¬t.val % 8 = 0 := by omega
  have hN : t.val < 32 := lt_of_lt_of_eq t.isLt (show cfg0.N = 32 from N_0)
  show (cfg0.win 2).cut (grid0.coords t) ((dats m 0 c).after 2 t) = _
  rw [after0_2]
  have e : outsAt0 m c t.val t.isLt = _ := outsAt0_C m c t h0 h7
  rw [e]; dsimp only
  rw [out_C]
  have hp := acc_eq m c (t.val - 1) (Nat.lt_of_le_of_lt (Nat.sub_le _ _) t.isLt)
  rw [hp, show (t.val - 1) % 8 + 1 = t.val % 8 from by omega, show (t.val - 1) / 8 = t.val / 8 from by omega,
    step m c t (t.val % 8) rfl, h7]
  funext y
  obtain ⟨b, l, rfl⟩ : ∃ (b : Fin 64) (l : Fin 2048), y = ix2 b l := ⟨y 0, y 1, eq_ix2 y⟩
  have hl : t.val / 8 * 2048 + l.val < 8192 := by have := l.isLt; omega
  rw [read_blk2 t _ b l hl]
  show partC _ _ 8 _ b l = _
  rw [partC_full _ _ _ b l hl]
  rfl

theorem mem_blk2 (t : Fin cfg0.N) (i : S64x8192.Idx) :
    i ∈ ((cfg0.win 2).blk t).view.set ↔ ∀ a : Fin 2, win0_2.index t a * S64x2048.size a ≤ (i a).val
      ∧ (i a).val < win0_2.index t a * S64x2048.size a + S64x2048.size a := by
  show i ∈ ((View.whole main_v0).slice (win0_2.rect t)).set ↔ _
  rw [View.set_slice_whole, Rect.mem_set_unit]
  exact Iff.rfl

/-- Every entry (b, n) of the result array lies in the block written at the last point of grid row n / 2048. -/
theorem cover (i : S64x8192.Idx) :
    ∃ t : Fin cfg0.N, (cfg0.win 2).flush t = true ∧ i ∈ ((cfg0.win 2).blk t).view.set := by
  have hi0 : (i 0).val < 64 := (i 0).isLt
  have hi1 : (i 1).val < 8192 := (i 1).isLt
  have hN : cfg0.N = 32 := N_0
  have ht : (i 1).val / 2048 * 8 + 7 < cfg0.N := by rw [hN]; omega
  obtain ⟨-, -, -, -, e4, e5⟩ := idx_facts ⟨(i 1).val / 2048 * 8 + 7, ht⟩
  refine ⟨⟨(i 1).val / 2048 * 8 + 7, ht⟩, (flush0_2 _).mpr (by show ((i 1).val / 2048 * 8 + 7) % 8 = 7; omega), ?_⟩
  rw [mem_blk2]
  intro a
  match a with
  | ⟨0, _⟩ =>
    show win0_2.index ⟨(i 1).val / 2048 * 8 + 7, ht⟩ 0 * 64 ≤ (i 0).val
      ∧ (i 0).val < win0_2.index ⟨(i 1).val / 2048 * 8 + 7, ht⟩ 0 * 64 + 64
    rw [e4]; omega
  | ⟨1, _⟩ =>
    show win0_2.index ⟨(i 1).val / 2048 * 8 + 7, ht⟩ 1 * 2048 ≤ (i 1).val
      ∧ (i 1).val < win0_2.index ⟨(i 1).val / 2048 * 8 + 7, ht⟩ 1 * 2048 + 2048
    rw [e5]
    show ((i 1).val / 2048 * 8 + 7) / 8 * 2048 ≤ (i 1).val ∧ (i 1).val < ((i 1).val / 2048 * 8 + 7) / 8 * 2048 + 2048
    omega

/-- The region's result array ends holding x · B. -/
theorem final_v0 (c : Dev nD) : (dats m 0 c).arrAt 2 cfg0.N = prodArr (xarr m c) (barr m c) :=
  (dats m 0 c).arrAt_eq_of_cover 2 (prodArr (xarr m c) (barr m c)) (flushed_eq m c) cover

end Cert.KernelIdeal.Acc

end
-- ==== Proof.KernelTail.lean ====
/-
  The host operations of the kernel program that follow the dense product, read at one entry.

  After the dense product v0 = x · B the program applies eight array operations to v0 and to the inputs
  h : [64, 8192], a : [8192], p, q : [8192, 4]:
      v1 = a laid out as one row                          [1, 8192]
      v2 = that row copied down 64 rows                   [64, 8192]
      v3 = h ∘ v2              (entrywise product)        [64, 8192]
      v4 = h · q               (matrix product)           [64, 4]
      v5 = pᵀ                                              [4, 8192]
      v6 = v4 · v5             (matrix product)           [64, 8192]
      v7 = v3 + v6,   v8 = v0 + v7.
  `tail` is their composition as one function of (v0, h, a, p, q), for any float instance. At the ideal
  instance (floats are extended reals, every operation its textbook one) the result at (b, n) is
      v0[b, n] + (h[b, n] · a[n] + Σ_r (Σ_j h[b, j] · q[j, r]) · p[n, r]) :
  a row copied down the rows reads the row, a one-row layout of a vector reads the vector, a matrix product
  at an entry is the sum over the contracted index of the products of entries, and a transposed matrix at
  (r, n) reads the matrix at (n, r).
-/
import proofs.«114020_j9680856285214_1_alg».proof.Proof.Gen.KernelIdeal
import proofs.«114020_j9680856285214_1_alg».proof.Proof.DplrSpec
import Idealize.ShloMosaic.Lib.StackMember
import Idealize.ShloMosaic.Lib.KernelVsHost
import Idealize.ShloMosaic.Lib.ValueLayout
import Idealize.ShloMosaic.Lib.ValueIdx
import Idealize.ShloMosaic.Lib.Pipeline.Value

noncomputable section

namespace Cert.KernelIdeal.Tail

open Idealize.ShloMosaic Idealize.ShloMosaic.ValueIdx Cert.KernelIdeal
open Cert.KernelIdeal.Facts₀
open scoped BigOperators

/-- The eight operations composed: v0 + (h ∘ rows(a) + (h · q) · pᵀ). -/
def tail {F : FTy → Type} [FloatOps F] (v0 h : FVec F S64x8192 .f32) (a : FVec F S8192 .f32)
    (p q : FVec F S8192x4 .f32) : FVec F S64x8192 .f32 :=
  addf v0 (addf (mulf h (broadcastInDim S64x8192 ![0, 1] bcast_S1x8192_S64x8192_0_1 (broadcastInDim S1x8192 ![1] bcast_S8192_S1x8192_1 a)))
    (Host.dotGeneral dot_S64x4_S4x8192_S64x8192_1_0_0_1_n_n none (Host.dotGeneral dot_S64x8192_S8192x4_S64x4_1_0_0_1_n_n none h q) (transpose S4x8192 [1, 0] p transposes_S8192x4_S4x8192_1_0)))

/-- The vector a laid out as one row and copied down 64 rows reads a[n] at (b, n): the copy down the rows
reads row 0, and the one-row layout at (0, n) reads the vector at n (the vector's one axis has extent
8192 ≠ 1, so its coordinate is the result's coordinate on axis 1). -/
theorem rows_apply {α : Type} (a : S8192.Idx → α) (b : Fin 64) (n : Fin 8192) :
    broadcastInDim S64x8192 ![0, 1] bcast_S1x8192_S64x8192_0_1
        (broadcastInDim S1x8192 ![1] bcast_S8192_S1x8192_1 a) (ix2 b n) = a (ix1 n) := by
  refine (broadcastInDim_oneRow_apply (m := 64) (n := 8192) bcast_S1x8192_S64x8192_0_1 _ b n).trans ?_
  refine broadcastInDim_apply ![1] bcast_S8192_S1x8192_1 a (ix2 (0 : Fin 1) n) (ix1 n) ?_
  intro c
  match c with
  | ⟨0, _⟩ =>
    show n.val = if (8192 : ℕ) = 1 then 0 else n.val
    rw [if_neg (by decide)]

/-- The product h · q at (b, r) is Σ_j h[b, j] · q[j, r]. -/
theorem hq_apply (h : FVec Ideal S64x8192 .f32) (q : FVec Ideal S8192x4 .f32) (b : Fin 64) (r : Fin 4) :
    Host.dotGeneral (F := Ideal) dot_S64x8192_S8192x4_S64x4_1_0_0_1_n_n none h q (ix2 b r)
      = ∑ j : Fin 8192, h (ix2 b j) * q (ix2 j r) := by
  have hd : dot_S64x8192_S8192x4_S64x4_1_0_0_1_n_n = DotDims.plain 64 8192 4 := rfl
  rw [hd]
  exact StackMember.dotGeneral_plain_apply none h q b r

/-- The rank-4 correction (h · q) · pᵀ at (b, n) is Σ_r (Σ_j h[b, j] · q[j, r]) · p[n, r]: a matrix product
at an entry, whose left factor is the product h · q and whose right factor pᵀ at (r, n) is p at (n, r). -/
theorem lowRank_apply (h : FVec Ideal S64x8192 .f32) (p q : FVec Ideal S8192x4 .f32) (b : Fin 64) (n : Fin 8192) :
    Host.dotGeneral (F := Ideal) dot_S64x4_S4x8192_S64x8192_1_0_0_1_n_n none
        (Host.dotGeneral dot_S64x8192_S8192x4_S64x4_1_0_0_1_n_n none h q)
        (transpose S4x8192 [1, 0] p transposes_S8192x4_S4x8192_1_0) (ix2 b n)
      = ∑ r : Fin 4, (∑ j : Fin 8192, h (ix2 b j) * q (ix2 j r)) * p (ix2 n r) := by
  have hd : dot_S64x4_S4x8192_S64x8192_1_0_0_1_n_n = DotDims.plain 64 4 8192 := rfl
  rw [hd]
  refine (StackMember.dotGeneral_plain_apply none _ _ b n).trans ?_
  refine Finset.sum_congr rfl (fun r _ => ?_)
  rw [hq_apply h q b r, transpose_ix2_apply (a := 8192) (b := 4) p transposes_S8192x4_S4x8192_1_0 r n]

/-- The eight operations read at (b, n), at the ideal instance. -/
theorem tail_apply (v0 h : FVec Ideal S64x8192 .f32) (a : FVec Ideal S8192 .f32) (p q : FVec Ideal S8192x4 .f32)
    (b : Fin 64) (n : Fin 8192) :
    tail (F := Ideal) v0 h a p q (ix2 b n)
      = v0 (ix2 b n) + (h (ix2 b n) * a (ix1 n) + ∑ r : Fin 4, (∑ j : Fin 8192, h (ix2 b j) * q (ix2 j r)) * p (ix2 n r)) := by
  unfold tail
  rw [addf_apply, addf_apply, mulf_apply, rows_apply a b n, lowRank_apply h p q b n]

end Cert.KernelIdeal.Tail

end
-- ==== Proof.KernelRun.lean ====
/-
  The kernel program's run, read as a value: the result is the factored form of the update.

  The region leaves x · B in its result array; the eight array operations after it add
  h ∘ rows(a) + (h · q) · pᵀ. Entry by entry that is the factored form `Cert.Dplr.kerVal`.
-/
import proofs.«114020_j9680856285214_1_alg».proof.Proof.KernelAcc
import proofs.«114020_j9680856285214_1_alg».proof.Proof.KernelTail
import Idealize.ShloMosaic.Lib.StableHlo.Run

noncomputable section

open Idealize.ShloMosaic Idealize.ShloMosaic.TcCoe Idealize.SL.Sem
open Idealize.ShloMosaic.ValueIdx
open Idealize.ShloMosaic.Pipeline (Dat)

namespace Cert.KernelIdeal.Result

open Cert.KernelIdeal Cert.KernelIdeal.Gen

variable (m : (ℓ : Loc nD τ sig) → Buf (Elt Ideal) ℓ) (ρ : Dev nD → PrngReg)

/-- After the host operations the result buffer holds the tail applied to x · B and the inputs. -/
theorem v8_eq (c : Dev nD) :
    Pipeline.afterTail₀ cfgs (dats m) 0 (V0 m) [hostOps1] c main_v8
      = Tail.tail (F := Ideal) (Acc.prodArr (Acc.xarr m c) (Acc.barr m c)) (m ((c : Thread nD τ).loc main_arg0))
          (m ((c : Thread nD τ).loc main_arg2)) (m ((c : Thread nD τ).loc main_arg3)) (m ((c : Thread nD τ).loc main_arg4)) := by
  unfold Pipeline.afterTail₀
  show StableHlo.after hostOps1 _ (Proc.devRef .tc main_v8) = _
  after_results
  have e0 : Pipeline.withArrays (cfgs 0).spec c (V0 m c) (fun w => (dats m 0 c).arrAt w (cfgs 0).N) (Proc.devRef .tc main_v0)
      = Acc.prodArr (Acc.xarr m c) (Acc.barr m c) :=
    (Pipeline.withArrays_arr spec0 launch0.win.arr_inj c _ _ 2).trans (Acc.final_v0 m c)
  have ea : ∀ (b : Ref sig .tc), (∀ w, Pipeline.arrRef spec0 w ≠ b) →
      Pipeline.withArrays (cfgs 0).spec c (V0 m c) (fun w => (dats m 0 c).arrAt w (cfgs 0).N) (Proc.devRef .tc b)
        = V0 m c (Proc.devRef .tc b) :=
    fun b hb => Pipeline.withArrays_of_ne _ c (V0 m c) _ b hb
  rw [e0, ea main_arg0 (by decide), ea main_arg2 (by decide), ea main_arg3 (by decide), ea main_arg4 (by decide)]
  rfl

/-- Entry by entry, the tail of x · B is the factored form of the update. -/
theorem tail_eq_kerVal (c : Dev nD) :
    Tail.tail (F := Ideal) (Acc.prodArr (Acc.xarr m c) (Acc.barr m c)) (m ((c : Thread nD τ).loc main_arg0))
        (m ((c : Thread nD τ).loc main_arg2)) (m ((c : Thread nD τ).loc main_arg3)) (m ((c : Thread nD τ).loc main_arg4))
      = Cert.Dplr.kerVal (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  funext i
  obtain ⟨b, n, rfl⟩ : ∃ (b : Fin 64) (n : Fin 8192), i = ix2 b n := ⟨i 0, i 1, eq_ix2 i⟩
  rw [Tail.tail_apply, Cert.Dplr.kerVal_apply]
  rfl

/-- Every weakly fair execution of the kernel program ends with the result at the factored form of the
    arguments' launch contents, and the arguments unchanged. -/
theorem run : θ_run defs (onTc (τ := τ) (main (F := Ideal))) ⟨m, fun _ => 0, ρ⟩ (fun r => ∀ c : Dev nD,
      r.2.mem ((c.tc : Thread nD τ).loc main_v8)
          = Cert.Dplr.kerVal (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v8 (Pipeline.mem_restRefs_of main_v8 (by decide) (by decide))).trans ((v8_eq m c).trans (tail_eq_kerVal m c)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 1).trans (((dats m 0 c).arrAt_in 1 rfl _).trans ((A_eq m c 1).trans (V_main_arg5 m c)))⟩)
    (run_main m ρ)

end Cert.KernelIdeal.Result

end
-- ==== Proof.RefRun.lean ====
/-
  The materialising program, run operation by operation.

  The program forms the matrix A = diag(a) + p qᵀ entry by entry and contracts h against its transpose:
      D[n, j]  = (a[n] if n = j else 0)          a select on the comparison of the two coordinate arrays,
      Qt       = qᵀ,                             [4, 8192]
      L        = p · Qt,                         [8192, 8192]
      A        = D + L,
      At       = Aᵀ,
      out      = h · At + x · B.                 [64, 8192]
  Here its twenty operations are listed in order (the two outlined functions' operations in place, over the
  buffers their calls name), the program is shown to be that straight line, and the line is run: every execution
  terminates, the arguments are unchanged, and the result buffer holds `refTerm`, the composition of the
  operations' functions applied to the arguments' contents at launch. Nothing here reads an entry of an array;
  the term is read at an index in the module that imports this one.
-/
import proofs.«114020_j9680856285214_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The composed term -/

/-- D[n, j] = a[n] where the row coordinate (plus the zero word) equals the column coordinate, else the zero
    constant: the diagonal matrix of `a`, as the program builds it. -/
def diagTerm (a : (⟨S8192, .f32⟩ : BufTy).Contents (Elt F)) : (⟨S8192x8192, .f32⟩ : BufTy).Contents (Elt F) :=
  select
    (cmpi .eq
      (addi (iotaInDim S8192x8192 32 0) (broadcastInDim S8192x8192 ![] bcast_S_S8192x8192 (constantI S_ 32 0#32)))
      (iotaInDim S8192x8192 32 1))
    (broadcastInDim S8192x8192 ![0, 1] bcast_S8192x1_S8192x8192_0_1
      (broadcastInDim S8192x1 ![0] bcast_S8192_S8192x1_0
        (pad S8192 ![0] ![0] ![0] a (constant (F := F) S_ .f32 0x00000000#32) pads_S8192_S8192_000 h_S_)))
    (broadcastInDim S8192x8192 ![] bcast_S_S8192x8192 (constant (F := F) S_ .f32 0x00000000#32))

/-- A = D + p · qᵀ, the state matrix materialised. -/
def stateTerm (a : (⟨S8192, .f32⟩ : BufTy).Contents (Elt F)) (p q : (⟨S8192x4, .f32⟩ : BufTy).Contents (Elt F)) :
    (⟨S8192x8192, .f32⟩ : BufTy).Contents (Elt F) :=
  addf (diagTerm a)
    (Host.dotGeneral dot_S8192x4_S4x8192_S8192x8192_1_0_0_1_n_n none p
      (transpose S4x8192 [1, 0] q transposes_S8192x4_S4x8192_1_0))

/-- out = h · Aᵀ + x · B. -/
def refTerm (h x : (⟨S64x8192, .f32⟩ : BufTy).Contents (Elt F)) (a : (⟨S8192, .f32⟩ : BufTy).Contents (Elt F))
    (p q : (⟨S8192x4, .f32⟩ : BufTy).Contents (Elt F)) (B : (⟨S8192x8192, .f32⟩ : BufTy).Contents (Elt F)) :
    (⟨S64x8192, .f32⟩ : BufTy).Contents (Elt F) :=
  addf
    (Host.dotGeneral dot_S64x8192_S8192x8192_S64x8192_1_0_0_1_n_n none h
      (transpose S8192x8192 [1, 0] (stateTerm a p q) transposes_S8192x8192_S8192x8192_1_0))
    (Host.dotGeneral dot_S64x8192_S8192x8192_S64x8192_1_0_0_1_n_n none x B)

/-! ## The operations -/

/-- The program's twenty operations in order: ten of the diagonal's function (the zero, the pad by nothing, the two
    coordinate arrays, the zero word and its splat, their sum, the comparison, the column form of `a`, the zero again),
    three of the select's function (the column copied along the rows, the zero's splat, the select), and @main's own
    seven (qᵀ, p · qᵀ, the sum, its transpose, h · Aᵀ, x · B, the final sum). -/
abbrev ops : List (HloOp τ sig (Elt F)) :=
  [ TRef.nullary main_call0.cst (constant S_ .f32 0x00000000#32),
    TRef.binary (.of main_arg2) main_call0.cst main_call0.v0 (fun x v => pad S8192 ![0] ![0] ![0] x v pads_S8192_S8192_000 h_S_),
    TRef.nullary main_call0.v1 (iotaInDim S8192x8192 32 0),
    TRef.nullary main_call0.v2 (iotaInDim S8192x8192 32 1),
    TRef.nullary main_call0.c (constantI S_ 32 0#32),
    TRef.unary main_call0.c main_call0.v3 (broadcastInDim S8192x8192 ![] bcast_S_S8192x8192),
    TRef.binary main_call0.v1 main_call0.v3 main_call0.v4 addi,
    TRef.binary main_call0.v4 main_call0.v2 main_call0.v5 (cmpi .eq),
    TRef.unary main_call0.v0 main_call0.v6 (broadcastInDim S8192x1 ![0] bcast_S8192_S8192x1_0),
    TRef.nullary main_call0.cst_0 (constant S_ .f32 0x00000000#32),
    TRef.unary main_call0.v6 main_call0.call0.v0 (broadcastInDim S8192x8192 ![0, 1] bcast_S8192x1_S8192x8192_0_1),
    TRef.unary main_call0.cst_0 main_call0.call0.v1 (broadcastInDim S8192x8192 ![] bcast_S_S8192x8192),
    TRef.ternary main_call0.v5 main_call0.call0.v0 main_call0.call0.v1 main_call0.call0.v2 select,
    unary main_arg4 main_v1 ((transpose S4x8192 [1, 0] · transposes_S8192x4_S4x8192_1_0) : (⟨S8192x4, .f32⟩ : BufTy).Contents (Elt F) → (⟨S4x8192, .f32⟩ : BufTy).Contents (Elt F)),
    binary main_arg3 main_v1 main_v2 ((fun l r => Host.dotGeneral dot_S8192x4_S4x8192_S8192x8192_1_0_0_1_n_n none l r) : (⟨S8192x4, .f32⟩ : BufTy).Contents (Elt F) → (⟨S4x8192, .f32⟩ : BufTy).Contents (Elt F) → (⟨S8192x8192, .f32⟩ : BufTy).Contents (Elt F)),
    binary main_v0 main_v2 main_v3 (addf : (⟨S8192x8192, .f32⟩ : BufTy).Contents (Elt F) → (⟨S8192x8192, .f32⟩ : BufTy).Contents (Elt F) → (⟨S8192x8192, .f32⟩ : BufTy).Contents (Elt F)),
    unary main_v3 main_v4 ((transpose S8192x8192 [1, 0] · transposes_S8192x8192_S8192x8192_1_0) : (⟨S8192x8192, .f32⟩ : BufTy).Contents (Elt F) → (⟨S8192x8192, .f32⟩ : BufTy).Contents (Elt F)),
    binary main_arg0 main_v4 main_v5 ((fun l r => Host.dotGeneral dot_S64x8192_S8192x8192_S64x8192_1_0_0_1_n_n none l r) : (⟨S64x8192, .f32⟩ : BufTy).Contents (Elt F) → (⟨S8192x8192, .f32⟩ : BufTy).Contents (Elt F) → (⟨S64x8192, .f32⟩ : BufTy).Contents (Elt F)),
    binary main_arg1 main_arg5 main_v6 ((fun l r => Host.dotGeneral dot_S64x8192_S8192x8192_S64x8192_1_0_0_1_n_n none l r) : (⟨S64x8192, .f32⟩ : BufTy).Contents (Elt F) → (⟨S8192x8192, .f32⟩ : BufTy).Contents (Elt F) → (⟨S64x8192, .f32⟩ : BufTy).Contents (Elt F)),
    binary main_v5 main_v6 main_v7 (addf : (⟨S64x8192, .f32⟩ : BufTy).Contents (Elt F) → (⟨S64x8192, .f32⟩ : BufTy).Contents (Elt F) → (⟨S64x8192, .f32⟩ : BufTy).Contents (Elt F)) ]

set_option maxRecDepth 1024 in
/-- @main is that straight line: with the two functions' definitions unfolded at their calls, both sides are one chain
    of steps once sequencing is reassociated. -/
theorem main_eq (c : Dev nD) : main (F := F) c = seq ops := by
  simp only [main, fn_diag.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., nullary_bufs_sub .., nullary_bufs_sub .., unary_bufs_sub ..,
    binary_bufs_sub .., binary_bufs_sub .., unary_bufs_sub .., nullary_bufs_sub .., unary_bufs_sub .., unary_bufs_sub ..,
    ternary_bufs_sub .., unary_bufs_sub .., binary_bufs_sub .., binary_bufs_sub .., unary_bufs_sub .., binary_bufs_sub ..,
    binary_bufs_sub .., binary_bufs_sub ..⟩

/-! ## What the buffers hold after the line -/

attribute [local irreducible] pad transpose broadcastInDim select cmpi addi addf iotaInDim constant constantI in
/-- The result buffer after the line is the composed term of the arguments' contents: the fold unrolled, each operation
    writes its own buffer and no other, and the typed references' transports are the identity at these literal
    references. The operations' functions are kept folded meanwhile: the equation never looks inside them. -/
theorem out_eq (V : Valuation τ sig (Elt F)) :
    after ops V (main_v7 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  unfold refTerm stateTerm diagTerm
  after_results
  rfl

/-- No operation writes an argument's buffer. -/
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results
theorem arg2_eq (V : Valuation τ sig (Elt F)) : after ops V (main_arg2 : DevRef τ sig) = V (main_arg2 : DevRef τ sig) := by
  after_results
theorem arg3_eq (V : Valuation τ sig (Elt F)) : after ops V (main_arg3 : DevRef τ sig) = V (main_arg3 : DevRef τ sig) := by
  after_results
theorem arg4_eq (V : Valuation τ sig (Elt F)) : after ops V (main_arg4 : DevRef τ sig) = V (main_arg4 : DevRef τ sig) := by
  after_results
theorem arg5_eq (V : Valuation τ sig (Elt F)) : after ops V (main_arg5 : DevRef τ sig) = V (main_arg5 : DevRef τ sig) := by
  after_results

/-- Every buffer after the line, from any launch memory. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The materialising program's result, entry by entry, over the extended reals.

  The run of the program ends with its result buffer at the composition `refTerm` of its twenty operations. Read at
  an index (b, n), at the ideal values:
    * the comparison of the row coordinate (plus the zero word) with the column coordinate is the bit of n = j: both
      are words of coordinates below 8192, far below 2³², so equal words are equal coordinates;
    * the column form of `a` copied along the rows reads a[n], and the zero constant's splat reads 0, so the select
      reads D[n, j] = (a[n] if n = j else 0);
    * p · qᵀ reads Σ_r p[n, r] · q[j, r], the contraction re-indexed over the four columns, and the transposes
      swap coordinates;
    * the two products against h and x read Σ_j h[b, j] · A[n, j] and Σ_k x[b, k] · B[k, n].
  That is `Cert.Dplr.refC` at (b, n); the whole array is `Cert.Dplr.refVal`, and the run is restated with it.
-/
import proofs.«114020_j9680856285214_1_alg».proof.Proof.RefRun
import proofs.«114020_j9680856285214_1_alg».proof.Proof.DplrSpec
import Idealize.ShloMosaic.Lib.StackMember
import Idealize.ShloMosaic.Lib.IdealHost
import Idealize.ShloMosaic.Lib.StableHlo.Predicate
import Idealize.ShloMosaic.Lib.ValueLayout

noncomputable section

namespace Cert.ReferenceIdeal.RefValue

open Idealize.ShloMosaic Idealize.SL.Sem Cert.ReferenceIdeal
open Cert.ReferenceIdeal.Gen Cert.ReferenceIdeal.RefRun Idealize.ShloMosaic.TcCoe Idealize.ShloMosaic.StableHlo
open Idealize.ShloMosaic.ValueIdx Idealize.ShloMosaic.StackMember
open scoped BigOperators

/-! ## The diagonal -/

/-- The comparison word at (n, j) is the bit of n = j: the row coordinate's word plus the zero word is the row
    coordinate's word, and two coordinates below 8192 with equal 32-bit words are equal. -/
theorem cond_apply (n j : Fin 8192) :
    cmpi .eq (addi (iotaInDim S8192x8192 32 0) (broadcastInDim S8192x8192 ![] bcast_S_S8192x8192 (constantI S_ 32 0#32)))
      (iotaInDim S8192x8192 32 1) (ix2 n j) = if n = j then 1#1 else 0#1 := by
  show IntOp.cmpi .eq (IntOp.addi (BitVec.ofNat 32 n.val) (broadcastInDim S8192x8192 ![] bcast_S_S8192x8192 (constantI S_ 32 0#32) (ix2 n j)))
      (BitVec.ofNat 32 j.val) = _
  rw [broadcastInDim_scalar_apply, constantI_apply]
  show IntOp.cmpi .eq (BitVec.ofNat 32 n.val + 0#32) (BitVec.ofNat 32 j.val) = _
  rw [BitVec.add_zero]
  by_cases hnj : n = j
  · rw [if_pos hnj, hnj]; exact StableHlo.Predicate.cmpi_eq_iff.mpr rfl
  · rw [if_neg hnj]
    refine eq_zero_of_ne_one fun h1 => hnj ?_
    have h2 := StableHlo.Predicate.cmpi_eq_iff.mp h1
    have h3 := congrArg BitVec.toNat h2
    simp only [BitVec.toNat_ofNat] at h3
    have hn := n.isLt; have hj := j.isLt
    exact Fin.ext (by omega)

/-- `a` padded by nothing, made a column [8192, 1] and copied along the rows, reads a[n] at (n, j). -/
theorem col_apply (a : FVec Ideal S8192 .f32) (n j : Fin 8192) :
    broadcastInDim S8192x8192 ![0, 1] bcast_S8192x1_S8192x8192_0_1
      (broadcastInDim S8192x1 ![0] bcast_S8192_S8192x1_0
        (pad S8192 ![0] ![0] ![0] a (constant (F := Ideal) S_ .f32 0x00000000#32) pads_S8192_S8192_000 h_S_)) (ix2 n j)
      = a (ix1 n) := by
  rw [broadcastInDim_apply _ _ _ _ (ix2 n (0 : Fin 1)) (fun c => match c with | ⟨0, _⟩ => rfl | ⟨1, _⟩ => rfl)]
  rw [broadcastInDim_apply _ _ _ _ (ix1 n) (fun c => match c with | ⟨0, _⟩ => rfl)]
  exact pad_apply_of_inside _ _ _ _ _ _ _ _ (ix1 n) (fun c => match c with | ⟨0, _⟩ => by simp)

/-- D[n, j] = a[n] if n = j, else 0. -/
theorem diag_apply (a : FVec Ideal S8192 .f32) (n j : Fin 8192) :
    diagTerm (F := Ideal) a (ix2 n j) = if n = j then a (ix1 n) else 0 := by
  unfold diagTerm
  rw [select_apply, cond_apply, col_apply, broadcastInDim_scalar_apply, constant_apply, Ideal.ofBits_zero_f32]
  by_cases hnj : n = j
  · rw [if_pos hnj, if_pos hnj, select_one]
  · rw [if_neg hnj, if_neg hnj, select_zero]

/-! ## The state matrix and the result -/

/-- A[n, j] = D[n, j] + Σ_r p[n, r] · q[j, r]. -/
theorem state_apply (a : FVec Ideal S8192 .f32) (p q : FVec Ideal S8192x4 .f32) (n j : Fin 8192) :
    stateTerm (F := Ideal) a p q (ix2 n j) = (if n = j then a (ix1 n) else 0) + ∑ r : Fin 4, p (ix2 n r) * q (ix2 j r) := by
  unfold stateTerm
  rw [addf_apply, diag_apply]
  have hd : dot_S8192x4_S4x8192_S8192x8192_1_0_0_1_n_n = DotDims.plain 8192 4 8192 := rfl
  rw [hd, dotGeneral_plain_apply]
  congr 1
  refine Finset.sum_congr rfl fun r _ => ?_
  rw [transpose_ix2_apply]

/-- The composed term at (b, n) is the materialised form's entry. -/
theorem refTerm_apply (h x : FVec Ideal S64x8192 .f32) (a : FVec Ideal S8192 .f32) (p q : FVec Ideal S8192x4 .f32)
    (B : FVec Ideal S8192x8192 .f32) (b : Fin 64) (n : Fin 8192) :
    refTerm (F := Ideal) h x a p q B (ix2 b n) = Cert.Dplr.refC h x a p q B b n := by
  unfold refTerm Cert.Dplr.refC Cert.Dplr.matC
  have hd : dot_S64x8192_S8192x8192_S64x8192_1_0_0_1_n_n = DotDims.plain 64 8192 8192 := rfl
  rw [addf_apply, hd, dotGeneral_plain_apply, dotGeneral_plain_apply]
  congr 1
  refine Finset.sum_congr rfl fun j _ => ?_
  rw [transpose_ix2_apply, state_apply]

/-- The composed term is the materialised form, as whole arrays. -/
theorem refTerm_eq (h x : FVec Ideal S64x8192 .f32) (a : FVec Ideal S8192 .f32) (p q : FVec Ideal S8192x4 .f32)
    (B : FVec Ideal S8192x8192 .f32) : refTerm (F := Ideal) h x a p q B = Cert.Dplr.refVal h x a p q B := by
  funext i
  obtain ⟨b, n, rfl⟩ : ∃ (b : Fin 64) (n : Fin 8192), i = ix2 b n := ⟨i 0, i 1, eq_ix2 i⟩
  rw [refTerm_apply, Cert.Dplr.refVal_apply]

/-! ## The run -/

/-- At the ideal values, from any memory with zero counters: every weakly fair execution of the materialising program
    terminates with its result buffer at the materialised form of the arguments' launch contents, the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v7)
          = Cert.Dplr.refVal (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c =>
      ⟨(h c main_v7).trans ((out_eq (launchContents m c)).trans (refTerm_eq _ _ _ _ _ _)),
        (h c main_arg0).trans (arg0_eq _), (h c main_arg1).trans (arg1_eq _), (h c main_arg2).trans (arg2_eq _),
        (h c main_arg3).trans (arg3_eq _), (h c main_arg4).trans (arg4_eq _), (h c main_arg5).trans (arg5_eq _)⟩)
    (run_main m ρ)

end Cert.ReferenceIdeal.RefValue

end
-- ==== Proof.FiniteInputs.lean ====
/-
  From the precondition to "every entry is a real number".

  The precondition is the conjunction, over the six argument arrays v, of "every entry of |v| lies strictly below +∞".
  Over the extended reals |x| = max x (−x), so |x| < +∞ fails at both infinities (|±∞| = +∞) and holds at every
  real number: an entry that satisfies it is a real number. The conjunction is taken apart one array at a time,
  each conjunct is read at an arbitrary index, and the entry there is split into its three cases −∞, real, +∞.
-/
import proofs.«114020_j9680856285214_1_alg».proof.Pre_finite_inputs
import proofs.«114020_j9680856285214_1_alg».proof.Proof.Gen.Pre_finite_inputs
import proofs.«114020_j9680856285214_1_alg».proof.Proof.DplrSpec
import Idealize.ShloMosaic.Lib.ReduceAll
import Idealize.ShloMosaic.PureOps.Ideal.Laws

namespace Cert.Dplr

open Idealize.ShloMosaic

/-- A shape with no axes has exactly one index. -/
theorem subsingleton_scalarIdx : Subsingleton Cert.Pre_finite_inputs.S_.Idx :=
  ⟨fun a b => funext fun d => d.elim0⟩

/-- The single-precision pattern with all exponent bits set, sign and fraction clear, denotes +∞. -/
theorem ofBits_posInf : Ideal.ofBits .f32 0x7F800000#32 = (⊤ : EReal) := by
  simp [Ideal.ofBits, Ideal.ieee]

/-- An extended real x with |x| = max x (−x) strictly below +∞ is a real number:
    at x = −∞ and at x = +∞ the maximum is +∞, which is not below itself. -/
theorem real_of_abs_lt_top (x : EReal) (hx : Ideal.cmp .olt (max x (-x)) (⊤ : EReal) = 1#1) :
    ∃ r : ℝ, x = (r : EReal) := by
  induction x using EReal.rec with
  | bot => simp [Ideal.cmp] at hx
  | coe r => exact ⟨r, rfl⟩
  | top => simp [Ideal.cmp] at hx

/-- Conjunction of two one-bit arrays, read at an index: it is 1 exactly when both entries are. -/
theorem andi_apply_eq_one {s : Shape} (c d : IVec s 1) (j : s.Idx) :
    andi c d j = 1#1 ↔ c j = 1#1 ∧ d j = 1#1 :=
  IntOp.andi_eq_one

/-- One array, one "all entries of |v| are below +∞": every entry of v is a real number.
    The shape, the reduced axes and the side conditions of the operations are arbitrary. -/
theorem allReal_of_all_abs_lt_inf {s : Shape} {axes : List (Fin s.rank)} (v : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf v)
            (broadcastInDim s ![] hb (constant (F := Ideal) Cert.Pre_finite_inputs.S_ .f32 0x7F800000#32)))
          (constantI Cert.Pre_finite_inputs.S_ 1 1#1) hr hu ValueIdx.ix0 = 1#1) :
    AllReal v := by
  intro i
  haveI := subsingleton_scalarIdx
  have hi := Host.reduce_andi_all _ _ hr hu ValueIdx.ix0 e i
  have hi' : Ideal.cmp .olt (max (v i) (-(v i))) (Ideal.ofBits .f32 0x7F800000#32) = 1#1 := hi
  rw [ofBits_posInf] at hi'
  exact real_of_abs_lt_top (v i) hi'

/-- The precondition makes every entry of each of the six arguments a real number. -/
theorem allReal_of_pre (h x : FVec Ideal Cert.Pre_finite_inputs.S64x8192 .f32)
    (a : FVec Ideal Cert.Pre_finite_inputs.S8192 .f32)
    (p q : FVec Ideal Cert.Pre_finite_inputs.S8192x4 .f32) (B : FVec Ideal Cert.Pre_finite_inputs.S8192x8192 .f32)
    (hpre : Cert.Pre_finite_inputs.fn (F := Ideal) h x a p q B = fun _ => 1#1) :
    AllReal h ∧ AllReal x ∧ AllReal a ∧ AllReal p ∧ AllReal q ∧ AllReal B := by
  have h0 := congrFun hpre ValueIdx.ix0
  dsimp only [Cert.Pre_finite_inputs.fn, Cert.Pre_finite_inputs.fn_part1] at h0
  rw [andi_apply_eq_one, andi_apply_eq_one, andi_apply_eq_one, andi_apply_eq_one, andi_apply_eq_one] at h0
  obtain ⟨⟨⟨⟨⟨eh, ex⟩, ea⟩, ep⟩, eq⟩, eB⟩ := h0
  exact ⟨allReal_of_all_abs_lt_inf h _ _ _ eh, allReal_of_all_abs_lt_inf x _ _ _ ex,
    allReal_of_all_abs_lt_inf a _ _ _ ea, allReal_of_all_abs_lt_inf p _ _ _ ep,
    allReal_of_all_abs_lt_inf q _ _ _ eq, allReal_of_all_abs_lt_inf B _ _ _ eB⟩

end Cert.Dplr
-- ==== Proof.DplrLaw.lean ====
/-
  The algebraic law: the factored form equals the materialised form.

  For a state matrix A = diag(a) + p qᵀ (a diagonal plus a rank-4 correction) and a row h[b, ·],
      Σ_j h[b, j] · A[n, j]  =  h[b, n] · a[n] + Σ_r (Σ_j h[b, j] · q[j, r]) · p[n, r].
  Over the real numbers this is distributivity, an exchange of two finite sums, and the fact that a sum
  against the indicator of one index keeps one term. Over the extended reals multiplication does not
  distribute over addition at the infinities (for instance ⊤ · (1 + (−1)) = 0 but ⊤ · 1 + ⊤ · (−1) = ⊤ + ⊥ = ⊥),
  so the law is proved for arrays h, a, p, q all of whose entries are real: every entry is written as the
  image of a real number, the identity is proved in ℝ, and it is carried to the extended reals by the
  embedding ℝ → EReal, which preserves 0, +, · and therefore finite sums.
  The dense product x · B is the same summand on both sides and is only moved across a commutative addition,
  so x and B may hold any extended reals.
-/
import proofs.«114020_j9680856285214_1_alg».proof.Proof.DplrSpec
import Mathlib.Data.EReal.Basic
import Mathlib.Algebra.BigOperators.Ring.Finset
import Mathlib.Algebra.BigOperators.Group.Finset.Basic
import Mathlib.Algebra.BigOperators.Group.Finset.Piecewise
import Mathlib.Algebra.BigOperators.Group.Finset.Sigma
import Mathlib.Tactic.Ring

noncomputable section

namespace Cert.Dplr

open Idealize.ShloMosaic Idealize.ShloMosaic.ValueIdx
open scoped BigOperators

/-- The law over the real numbers, for one output coordinate n: `hb` is the row h[b, ·], `an` is a[n],
`pn` is the row p[n, ·] and `qq` is q.
  Σ_j hb j · ((an if n = j, else 0) + Σ_r pn r · qq j r)
    = Σ_j hb j · (an if n = j, else 0) + Σ_j hb j · Σ_r pn r · qq j r          (distributivity)
    = hb n · an + Σ_r (Σ_j hb j · qq j r) · pn r                               (indicator; exchange of sums). -/
theorem real_law (hb : Fin 8192 → ℝ) (n : Fin 8192) (an : ℝ) (pn : Fin 4 → ℝ)
    (qq : Fin 8192 → Fin 4 → ℝ) :
    hb n * an + ∑ r : Fin 4, (∑ j : Fin 8192, hb j * qq j r) * pn r
      = ∑ j : Fin 8192, hb j * ((if n = j then an else 0) + ∑ r : Fin 4, pn r * qq j r) := by
  -- a sum against the indicator of the index n keeps the n-th term
  have h1 : ∑ j : Fin 8192, hb j * (if n = j then an else 0) = hb n * an := by
    simp only [mul_ite, mul_zero]
    rw [Finset.sum_ite_eq]
    simp only [Finset.mem_univ, if_true]
  -- the rank-4 correction: both sides are the double sum Σ_r Σ_j hb j · qq j r · pn r
  have h2 : ∑ j : Fin 8192, hb j * ∑ r : Fin 4, pn r * qq j r
      = ∑ r : Fin 4, (∑ j : Fin 8192, hb j * qq j r) * pn r := by
    simp only [Finset.mul_sum, Finset.sum_mul]
    rw [Finset.sum_comm]
    refine Finset.sum_congr rfl (fun r _ => Finset.sum_congr rfl (fun j _ => ?_))
    ring
  simp only [mul_add, Finset.sum_add_distrib]
  rw [h1, h2]

/-- The embedding ℝ → EReal preserves finite sums (it preserves 0 and +). -/
theorem coe_sum {ι : Type*} (s : Finset ι) (f : ι → ℝ) :
    ((∑ i ∈ s, f i : ℝ) : EReal) = ∑ i ∈ s, (f i : EReal) := by
  classical
  induction s using Finset.induction_on with
  | empty => simp only [Finset.sum_empty, EReal.coe_zero]
  | insert a s ha ih => rw [Finset.sum_insert ha, Finset.sum_insert ha, EReal.coe_add, ih]

/-- The embedding ℝ → EReal goes inside a case distinction. -/
theorem coe_ite (c : Prop) [Decidable c] (u v : ℝ) :
    ((if c then u else v : ℝ) : EReal) = if c then (u : EReal) else (v : EReal) :=
  apply_ite _ _ _ _

/-- The law over the extended reals when every entry is the image of a real number: the image of
`real_law` under the embedding, which preserves 0, +, · and finite sums. -/
theorem ereal_law (hb : Fin 8192 → ℝ) (n : Fin 8192) (an : ℝ) (pn : Fin 4 → ℝ)
    (qq : Fin 8192 → Fin 4 → ℝ) :
    (hb n : EReal) * (an : EReal)
        + ∑ r : Fin 4, (∑ j : Fin 8192, (hb j : EReal) * (qq j r : EReal)) * (pn r : EReal)
      = ∑ j : Fin 8192, (hb j : EReal)
          * ((if n = j then (an : EReal) else 0) + ∑ r : Fin 4, (pn r : EReal) * (qq j r : EReal)) := by
  have key := congrArg (fun t : ℝ => (t : EReal)) (real_law hb n an pn qq)
  simp only [EReal.coe_add, EReal.coe_mul, coe_sum, coe_ite, EReal.coe_zero] at key
  exact key

/-- The two forms agree at every coordinate (b, n) when h, a, p, q have real entries. The dense product
x · B is the same summand on both sides; addition of extended reals is commutative, so it is moved to the
same side and cancelled as a common term, and the rest is `ereal_law` at the row h[b, ·]. -/
theorem kerC_eq_refC (h x : SBH.Idx → EReal) (a : SH.Idx → EReal) (p q : SHR.Idx → EReal)
    (B : SHH.Idx → EReal)
    (hh : AllReal h) (ha : AllReal a) (hp : AllReal p) (hq : AllReal q)
    (b : Fin 64) (n : Fin 8192) :
    kerC h x a p q B b n = refC h x a p q B b n := by
  choose hR hhR using hh
  choose aR haR using ha
  choose pR hpR using hp
  choose qR hqR using hq
  unfold kerC refC
  rw [add_comm (matC x B b n)]
  congr 1
  simp only [hhR, haR, hpR, hqR]
  exact ereal_law (fun j => hR (ix2 b j)) n (aR (ix1 n)) (fun r => pR (ix2 n r)) (fun j r => qR (ix2 j r))

/-- The factored form and the materialised form are the same array when h, a, p, q have real entries. -/
theorem kerVal_eq_refVal (h x : SBH.Idx → EReal) (a : SH.Idx → EReal) (p q : SHR.Idx → EReal)
    (B : SHH.Idx → EReal)
    (hh : AllReal h) (ha : AllReal a) (hp : AllReal p) (hq : AllReal q) :
    kerVal h x a p q B = refVal h x a p q B := by
  funext i
  exact kerC_eq_refC h x a p q B hh ha hp hq (i 0) (i 1)

end Cert.Dplr

end
-- ==== Proof.lean ====
/-
  The certificate: a recurrent state update with a diagonal-plus-low-rank state matrix,
      out = h · (diag(a) + p qᵀ)ᵀ + x · B,
  computed in factored form (a blocked kernel for x · B, then h ∘ a + (h · q) · pᵀ on the host) against the
  reference that materialises the matrix.

  * The kernel's accumulator after each grid point is a partial contraction (Proof/KernelPieces.lean,
    Proof/KernelAcc.lean); its result array is x · B, and the host operations after it give the factored
    form (Proof/KernelTail.lean, Proof/KernelRun.lean).
  * The reference's run ends at the materialised form (Proof/RefRun.lean, Proof/RefValue.lean).
  * For finite inputs the two forms agree: distributivity over the real numbers, the diagonal collapsing the
    sum over j to its n-th term (Proof/DplrSpec.lean, Proof/DplrLaw.lean, Proof/FiniteInputs.lean).
  The idealization rewrote nothing, so `preserves` is trivial; the three frames are the runs with the value dropped.
-/
import proofs.«114020_j9680856285214_1_alg».proof.Defs
import proofs.«114020_j9680856285214_1_alg».proof.Proof.Gen.Kernel
import proofs.«114020_j9680856285214_1_alg».proof.Proof.Gen.Kernel.Skeleton
import proofs.«114020_j9680856285214_1_alg».proof.Proof.Gen.Kernel.Launch
import proofs.«114020_j9680856285214_1_alg».proof.Proof.Gen.Kernel.Points
import proofs.«114020_j9680856285214_1_alg».proof.Proof.Gen.Kernel.Frame
import proofs.«114020_j9680856285214_1_alg».proof.Proof.Gen.KernelIdeal
import proofs.«114020_j9680856285214_1_alg».proof.Proof.Gen.KernelIdeal.Skeleton
import proofs.«114020_j9680856285214_1_alg».proof.Proof.Gen.KernelIdeal.Launch
import proofs.«114020_j9680856285214_1_alg».proof.Proof.Gen.KernelIdeal.Points
import proofs.«114020_j9680856285214_1_alg».proof.Proof.Gen.KernelIdeal.Frame
import proofs.«114020_j9680856285214_1_alg».proof.Proof.Gen.ReferenceIdeal
import proofs.«114020_j9680856285214_1_alg».proof.Proof.Gen.Pre_finite_inputs
import proofs.«114020_j9680856285214_1_alg».proof.Proof.KernelRun
import proofs.«114020_j9680856285214_1_alg».proof.Proof.RefValue
import proofs.«114020_j9680856285214_1_alg».proof.Proof.FiniteInputs
import proofs.«114020_j9680856285214_1_alg».proof.Proof.DplrLaw
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result's value dropped. -/
theorem frame_referenceIdeal : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- From arguments that agree and are finite, the kernel program ends at the factored form and the reference at the
    materialised form of the same arrays; the two forms are equal when h, a, p, q are real-valued. -/
theorem algebraic : Cert.algebraic_KernelIdeal_ReferenceIdeal := by
  intro m ρ m' ρ' hpre hagree
  refine ⟨_, Cert.KernelIdeal.Result.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5⟩ := hagree c
  rw [e0, e1, e2, e3, e4, e5]
  obtain ⟨hh, -, ha, hp, hq, -⟩ := Cert.Dplr.allReal_of_pre _ _ _ _ _ _ (hpre c)
  exact (Cert.Dplr.kerVal_eq_refVal _ _ _ _ _ _ hh ha hp hq).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
